-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x2 : Shape := ⟨3, ![8192, 256, 2]⟩
abbrev S_ : Shape := ⟨0, ![]⟩

class Facts : Prop where
  bcast_S_S8192x256x2 : S_.BroadcastsInDim S8192x256x2 (![] : Fin 0 → Fin S8192x256x2.rank)
  reducesTo_S8192x256x2_S_d0_1_2 : S8192x256x2.ReducesTo [0, 1, 2] S_
  h_S_ : 0 < S_.numel

variable [Facts]

def fn {F : FTy → Type} [FloatOps F] (main_arg0 : FVec F S8192x256x2 .f32) (main_arg1 : FVec F S8192x256x2 .f32) : IVec S_ 1 :=
  let main_v0 : FVec F S8192x256x2 .f32 := Host.absf main_arg0
  let main_cst : FVec F S_ .f32 := constant S_ .f32 0x7F800000#32
  let main_v1 : FVec F S8192x256x2 .f32 := broadcastInDim S8192x256x2 ![] bcast_S_S8192x256x2 main_cst
  let main_v2 : IVec S8192x256x2 1 := cmpf .olt main_v0 main_v1
  let main_c : IVec S_ 1 := constantI S_ 1 1#1
  let main_v3 : IVec S_ 1 := (fun x v => Host.reduce IntOp.andi x v reducesTo_S8192x256x2_S_d0_1_2 h_S_) main_v2 main_c
  let main_v4 : FVec F S8192x256x2 .f32 := Host.absf main_arg1
  let main_cst_0 : FVec F S_ .f32 := constant S_ .f32 0x7F800000#32
  let main_v5 : FVec F S8192x256x2 .f32 := broadcastInDim S8192x256x2 ![] bcast_S_S8192x256x2 main_cst_0
  let main_v6 : IVec S8192x256x2 1 := cmpf .olt main_v4 main_v5
  let main_c_1 : IVec S_ 1 := constantI S_ 1 1#1
  let main_v7 : IVec S_ 1 := (fun x v => Host.reduce IntOp.andi x v reducesTo_S8192x256x2_S_d0_1_2 h_S_) main_v6 main_c_1
  let main_v8 : IVec S_ 1 := andi main_v3 main_v7
  main_v8
-- ==== Kernel.lean ====
abbrev S8192x256x2 : Shape := ⟨3, ![8192, 256, 2]⟩
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8192x256x2, .f32⟩
  | .hbm, ⟨1, _⟩ => ⟨S8192x256x2, .f32⟩
  | .hbm, ⟨2, _⟩ => ⟨S8192x512, .f32⟩
  | .hbm, ⟨3, _⟩ => ⟨S8192x512, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192x256x2_S8192x512 : S8192x256x2.ShapeCasts S8192x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  bitsLt_bf16_f32 : FTy.bits .bf16 < FTy.bits .f32
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256x2 : Shape := ⟨3, ![8192, 256, 2]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x256x2, .f32⟩
  | .hbm, ⟨1, _⟩ => ⟨S8192x256x2, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S512x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S8192x256x2_S8192x512 : S8192x256x2.ShapeCasts S8192x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Pieces.lean ====
/-
  What the body leaves behind at a grid point, case by case, as values.

  The body keeps a running row sum in a scratch column of 1024 entries.  At the first column tile of a row tile it
  stores the zero column and then the update of that zero column; at every other column tile it stores the update of
  what the point before left; at the last column tile it also copies the updated column into the output block.  So in
  every case the scratch ends at the update `k0_pay2` of the two input blocks and the column it started from
  (`k0_pay1`, the zero column, in the first case), and in the last case the output block holds the same column.
-/
import proofs.«179200_j34952443855259_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-block access, as a function. -/
theorem hz : (![0, 0] : Fin 2 → Nat) = fun _ => 0 := funext fun a => by fin_cases a <;> rfl

/-- First column tile: the reset's zero column, read back and updated, is what the scratch ends with. -/
theorem sout_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S1024x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x512) hz]

/-- A middle column tile: the scratch ends at the update of what it held. -/
theorem sout_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S1024x512 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x1) hz]
  simp only [View.readAt_eq_ld, harg2.read_unread, harg3.read_unread, harg5.read_unread, View.ld_unit_zero (S := S1024x512) hz, View.ld_unit_zero (S := S1024x1) hz]

/-- The last column tile: the scratch ends at the update of what it held, -/
theorem sout_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S1024x512 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x1) hz]
  simp only [View.readAt_eq_ld, harg2.read_unread, harg3.read_unread, harg5.read_unread, View.ld_unit_zero (S := S1024x512) hz, View.ld_unit_zero (S := S1024x1) hz]

/-- and the output block is the same column, read back from the scratch. -/
theorem out_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S1024x512 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg5.read_unread, View.ld_unit_zero (S := S1024x512) hz, View.ld_unit_zero (S := S1024x1) hz]

end Cert.KernelIdeal.Pieces

end
-- ==== Proof.Spec.lean ====
/-
  The mathematics both programs compute, stated once over the extended reals and over no program.

  For two arrays `X`, `Y` of 8192 rows of 512 features, the clamped Euclidean distance of row `R` of `X` and
  row `C` of `Y` is `√ max (‖X_R‖² + ‖Y_C‖² − 2·⟨X_R, Y_C⟩, 0)` (`rdist`), and the result is the mean of the
  8192 × 8192 distances: their sum over the zero, divided by 2²⁶ (`mean`).

  The tiled program never forms the whole matrix of distances. It cuts both arrays into 8 tiles of 1024 rows, and for
  each row `r` of row tile `i` adds up, tile by tile over `j`, the sum over the 1024 columns of column tile `j`
  (`tile`), starting from the zero (`partialSum`); after the eighth tile that is the row's whole sum (`rowSum`).
  `sum_rowSum` says the row sums add up to the sum of all distances: addition on the extended reals is commutative and
  associative, so regrouping a finite sum by tiles changes nothing, and no finiteness is needed.
-/
import Idealize.ShloMosaic.PureOps.Ideal
import Idealize.ShloMosaic.PureOps.Ideal.Laws
import Idealize.ShloMosaic.Lib.ValueIdx

noncomputable section

namespace Cert.Cdist

open Idealize.ShloMosaic Idealize.ShloMosaic.ValueIdx

/-- An array of 8192 rows of 512 features, over the extended reals. -/
abbrev Arr : Type := (⟨2, ![8192, 512]⟩ : Shape).Idx → EReal

/-- The clamped distance of two feature rows: `√ max (‖x‖² + ‖y‖² − 2·⟨x, y⟩, 0)`, the factor 2 and the clamp's 0
    written as the f32 words the programs carry. -/
def rdist (xr yc : Fin 512 → EReal) : EReal :=
  Ideal.sqrt (max ((∑ d : Fin 512, xr d * xr d) + (∑ d : Fin 512, yc d * yc d)
      - Ideal.ofBits .f32 0x40000000#32 * ∑ d : Fin 512, xr d * yc d) (Ideal.ofBits .f32 0x00000000#32))

/-- Row `R` of an array, as a function of the feature. -/
def row (X : Arr) (R : Fin 8192) : Fin 512 → EReal := fun d => X (ix2 R d)

/-- Row `r` of row tile `i` (tiles of 1024 rows) as a row of the whole array: row `1024·i + r`; made total in
    `i` by wrapping, which never happens for `i < 8`. -/
def rowIx (i : ℕ) (r : Fin 1024) : Fin 8192 := ⟨(1024 * i + r.val) % 8192, Nat.mod_lt _ (by decide)⟩

/-- What one tile pair contributes to row `r` of row tile `i`: the distances to the 1024 rows of column tile `j`, summed. -/
def tile (X Y : Arr) (i j : ℕ) (r : Fin 1024) : EReal :=
  ∑ col : Fin 1024, rdist (row X (rowIx i r)) (row Y (rowIx j col))

/-- The running sum of row `r` of row tile `i` after column tiles `0 … k`: from the zero word, one tile at a time. -/
def partialSum (X Y : Arr) (i : ℕ) (r : Fin 1024) : ℕ → EReal
  | 0 => Ideal.ofBits .f32 0x00000000#32 + tile X Y i 0 r
  | k + 1 => partialSum X Y i r k + tile X Y i (k + 1) r

/-- The whole row sum of row `R`: the running sum of its tile and local row after the eighth column tile. -/
def rowSum (X Y : Arr) (R : Fin 8192) : EReal :=
  partialSum X Y (R.val / 1024) ⟨R.val % 1024, Nat.mod_lt _ (by decide)⟩ 7

/-- The sum of all 8192 × 8192 distances. -/
def total (X Y : Arr) : EReal := ∑ R : Fin 8192, ∑ C : Fin 8192, rdist (row X R) (row Y C)

/-- The mean distance: the sum over the zero word, divided by the word of 2²⁶ = 8192 · 8192. -/
def mean (X Y : Arr) : EReal :=
  Ideal.div (Ideal.ofBits .f32 0x00000000#32 + total X Y) (Ideal.ofBits .f32 0x4C800000#32)

/-- The running sum is the plain sum of the tiles so far (the zero word is the real 0). -/
theorem partialSum_eq (X Y : Arr) (i : ℕ) (r : Fin 1024) (k : ℕ) :
    partialSum X Y i r k = ∑ j ∈ Finset.range (k + 1), tile X Y i j r := by
  induction k with
  | zero => simp [partialSum, Ideal.ofBits_zero_f32]
  | succ k ih => rw [partialSum, ih, Finset.sum_range_succ (fun j => tile X Y i j r) (k + 1)]

/-- A row's tile and local row give the row back. -/
theorem rowIx_div_mod (R : Fin 8192) : rowIx (R.val / 1024) ⟨R.val % 1024, Nat.mod_lt _ (by decide)⟩ = R := by
  apply Fin.ext
  show (1024 * (R.val / 1024) + R.val % 1024) % 8192 = R.val
  have := R.isLt
  omega

/-- Eight tiles of 1024 rows are the 8192 rows: a sum over the rows is the sum over the tiles of the sums inside them. -/
theorem sum_tiles (f : Fin 8192 → EReal) :
    ∑ j ∈ Finset.range 8, ∑ col : Fin 1024, f (rowIx j col) = ∑ C : Fin 8192, f C := by
  rw [Finset.sum_range (fun j => ∑ col : Fin 1024, f (rowIx j col))]
  rw [← Equiv.sum_comp (finProdFinEquiv : Fin 8 × Fin 1024 ≃ Fin 8192) f, Fintype.sum_prod_type]
  refine Finset.sum_congr rfl fun j _ => Finset.sum_congr rfl fun col _ => congrArg f (Fin.ext ?_)
  show (1024 * j.val + col.val) % 8192 = col.val + 1024 * j.val
  have := j.isLt; have := col.isLt
  omega

/-- The row sums add up to the sum of all distances. -/
theorem sum_rowSum (X Y : Arr) : ∑ R : Fin 8192, rowSum X Y R = total X Y := by
  unfold total
  refine Finset.sum_congr rfl fun R _ => ?_
  unfold rowSum
  rw [partialSum_eq]
  simp only [tile, rowIx_div_mod]
  exact sum_tiles fun C => rdist (row X R) (row Y C)

end Cert.Cdist

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Payload.lean ====
/-
  The body's arithmetic at one entry, on the extended reals.
-/
import proofs.«179200_j34952443855259_1_alg».proof.Proof.Gen.KernelIdeal.Skeleton
import proofs.«179200_j34952443855259_1_alg».proof.Proof.Spec
import proofs.«179200_j34952443855259_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Cdist

/-! ## Three column forms read at an index, and a row sum's inserted index -/

section Column
variable {α : Type}

/-- An `[a]` array cast to the column `[a, 1]` reads, at `(p, u)`, the operand at `p`, whatever the unit coordinate `u`. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- For a matrix summed along its rows, the reduced index `p` with the column `d` put back is `(p, d)`. -/
private theorem lift_ix1 {a b : ℕ} (h : (⟨2, ![a, b]⟩ : Shape).Reduces [1] ⟨1, ![a]⟩) (p : Fin a) (d : Fin b) :
    h.lift (ix1 p) d = ix2 p d := by
  funext ax
  match ax with
  | ⟨0, _⟩ => exact Fin.ext rfl
  | ⟨1, _⟩ => exact Fin.ext rfl

/-- The squared row norms as a column: a matrix's squares summed along each row and cast to `[a, 1]` read, at
    `(p, u)`, the sum over the row `p` of the squares. -/
private theorem sqcol_apply {a b : ℕ} {φ : FTy} (x : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ (mulf x x) acc hr hφ hacc) hc (ix2 p u)
      = ∑ d : Fin b, x (ix2 p d) * x (ix2 p d) := by
  refine (shapeCast_a_a1_apply _ hc p u).trans ?_
  refine (Ideal.multiReduction_add_single (mulf x x) acc hr hφ hacc (ix1 p)).trans ?_
  refine Finset.sum_congr rfl fun d _ => ?_
  show mulf x x (hr.lift (ix1 p) d) = _
  rw [lift_ix1 hr p d]
  rfl

/-- The clamped distance's shape: equal squared norms and equal inner products give equal distances. -/
private theorem dist_congr {A B M A' B' M' : EReal} (c z : EReal) (hA : A = A') (hB : B = B') (hM : M = M') :
    Ideal.sqrt (max (A + B - c * M) z) = Ideal.sqrt (max (A' + B' - c * M') z) := by
  rw [hA, hB, hM]

/-- The reset stores the zero word at every entry. -/
theorem pay1_apply (r : Fin 1024) (u : Fin 1) :
    (k0_pay1 (F := Ideal)) (ix2 r u) = Ideal.ofBits .f32 0x00000000#32 := by
  unfold k0_pay1
  exact congrFun (shapeCast_self _ _) _

/-- The update read at `(r, u)`, the three operands taken as vectors of extended reals. -/
private theorem pay2_apply_aux (x0 x1 : FVec Ideal S1024x512 .f32) (acc : FVec Ideal S1024x1 .f32) (r : Fin 1024) (u : Fin 1) :
    k0_pay2 (F := Ideal) x0 x1 acc (ix2 r u)
      = acc (ix2 r u) + ∑ col : Fin 1024, rdist (fun d => x0 (ix2 r d)) (fun d => x1 (ix2 col d)) := by
  unfold k0_pay2
  simp only [shapeCast_self]
  -- the outer sum of the accumulator and the column of row sums
  refine (addf_apply _ _ _).trans ?_
  refine congrArg (fun t => acc (ix2 r u) + t) ?_
  -- the column of row sums at (r, u) is the row sum at r: the sum over the 1024 columns of the tile at (r, col)
  refine (shapeCast_a_a1_apply _ _ r u).trans ?_
  refine (Ideal.multiReduction_add_single _ _ _ _ _ (ix1 r)).trans ?_
  refine Finset.sum_congr rfl fun col _ => ?_
  refine (congrArg _ (lift_ix1 _ r col)).trans ?_
  -- the tile at (r, col): root of the clamped (x2 + y2 − 2·product)
  show Ideal.sqrt (max (_ + _ - _ * _) _) = _
  unfold rdist
  refine dist_congr _ _ ?_ ?_ ?_
  · -- the first block's squared row norm, spread along the row
    exact (broadcastTo_a1_ab_apply _ _ r col).trans (sqcol_apply _ _ _ _ _ _ r 0)
  · -- the second block's squared row norms, laid as a row and spread down the columns
    refine (broadcastTo_1b_ab_apply _ _ r col).trans ?_
    refine (transpose_ix2_apply _ _ (0 : Fin 1) col).trans ?_
    exact sqcol_apply _ _ _ _ _ _ col 0
  · -- the product of the first block with the second block transposed
    refine (Cert.Gcn.matmul_plain_apply _ ⟨rfl, rfl, rfl, rfl, rfl, rfl⟩ none _ _ r col).trans ?_
    refine Finset.sum_congr rfl fun d _ => ?_
    exact congrArg (fun t => x0 (ix2 r d) * t) (transpose_ix2_apply _ _ d col)

/-- The update at row `r`: the accumulator's entry plus the sum, over the 1024 rows of the second block, of the clamped
    distance between row `r` of the first block and that row. -/
theorem pay2_apply (x0 x1 : Vec Ideal S1024x512 .f32) (acc : Vec Ideal S1024x1 .f32) (r : Fin 1024) (u : Fin 1) :
    k0_pay2 (F := Ideal) x0 x1 acc (ix2 r u)
      = acc (ix2 r u) + ∑ col : Fin 1024, rdist (fun d => x0 (ix2 r d)) (fun d => x1 (ix2 col d)) := by
  exact pay2_apply_aux x0 x1 acc r u

end Cert.KernelIdeal.Payload

end
-- ==== Proof.KernelValue.lean ====
/-
  The kernel's result, read off its frame run, on the extended reals.

  The grid has 8 × 8 points: point `t` works on row tile `t / 8` of the first array and column tile `t % 8` of the
  second.  The scratch column carries, across the eight points of a row tile, the running sum of each of its 1024 rows
  (`scratch_eq`, by induction on the point: the reset point starts it from the zero word, every point adds its tile
  pair's contribution); the last point of a row tile copies the column into the output block, which is written back
  there and only there.  Those eight blocks tile the [8192, 1] array of row sums (`cover`), so the array ends holding
  every row's whole sum (`final`).  The host lines after the region add the row sums up from the zero word and divide by
  the word of 2²⁶; since the row sums add up to the sum of all distances (`Cert.Cdist.sum_rowSum`), that is the mean.
-/
import proofs.«179200_j34952443855259_1_alg».proof.Proof.Gen.KernelIdeal.Frame
import proofs.«179200_j34952443855259_1_alg».proof.Proof.Pieces
import proofs.«179200_j34952443855259_1_alg».proof.Proof.Payload
import proofs.«179200_j34952443855259_1_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx Cert.Cdist
open Idealize.ShloMosaic.Pipeline (Dat)

variable (m : (ℓ : Loc nD τ sig) → Buf (Elt Ideal) ℓ) (ρ : Dev nD → PrngReg)

/-- The two reshaped arrays as the region finds them, and the two input blocks at a grid point, each at its literal shape. -/
abbrev xarr (c : Dev nD) : Vec Ideal S8192x512 .f32 := V m c main_v0
abbrev yarr (c : Dev nD) : Vec Ideal S8192x512 .f32 := V m c main_v1
abbrev xblk (c : Dev nD) (t : Fin cfg0.N) : Vec Ideal S1024x512 .f32 := iblk m c 0 t
abbrev yblk (c : Dev nD) (t : Fin cfg0.N) : Vec Ideal S1024x512 .f32 := iblk m c 1 t

/-- Point `t` of the 8 × 8 grid is row tile `t / 8` and column tile `t % 8`: the first window's block index is the row
    tile, the second's the column tile, the output's the row tile; the second axis is never cut. -/
theorem idx_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- Row `r` of the first block at point `t` is row `1024·(t / 8) + r` of the first array. -/
theorem xblk_apply (c : Dev nD) (t : Fin cfg0.N) (r : Fin 1024) (d : Fin 512) :
    xblk m c t (ix2 r d) = xarr m c (ix2 (rowIx (t.val / 8) r) d) := by
  have hN : cfg0.N = 64 := N_0
  have ht := t.isLt
  show iblk m c 0 t (ix2 r d) = V m c main_v0 (ix2 (rowIx (t.val / 8) r) d)
  unfold iblk
  rw [View.read_apply]
  show V m c main_v0 _ = V m c main_v0 _
  congr 1
  funext a
  apply Fin.ext
  match a with
  | ⟨0, _⟩ =>
    show win0_0.index t 0 * 1024 + 1 * r.val = (1024 * (t.val / 8) + r.val) % 8192
    rw [(idx_0 t).1]; omega
  | ⟨1, _⟩ =>
    show win0_0.index t 1 * 512 + 1 * d.val = d.val
    rw [(idx_0 t).2]; omega

/-- Row `col` of the second block at point `t` is row `1024·(t % 8) + col` of the second array. -/
theorem yblk_apply (c : Dev nD) (t : Fin cfg0.N) (col : Fin 1024) (d : Fin 512) :
    yblk m c t (ix2 col d) = yarr m c (ix2 (rowIx (t.val % 8) col) d) := by
  have hN : cfg0.N = 64 := N_0
  have ht := t.isLt
  show iblk m c 1 t (ix2 col d) = V m c main_v1 (ix2 (rowIx (t.val % 8) col) d)
  unfold iblk
  rw [View.read_apply]
  show V m c main_v1 _ = V m c main_v1 _
  congr 1
  funext a
  apply Fin.ext
  match a with
  | ⟨0, _⟩ =>
    show win0_1.index t 0 * 1024 + 1 * col.val = (1024 * (t.val % 8) + col.val) % 8192
    rw [(idx_1 t).1]; omega
  | ⟨1, _⟩ =>
    show win0_1.index t 1 * 512 + 1 * d.val = d.val
    rw [(idx_1 t).2]; omega

/-- So the update at point `t` adds, to row `r` of the running column, the tile pair's contribution to that row. -/
theorem update_apply (c : Dev nD) (t : Fin cfg0.N) (acc : Vec Ideal S1024x1 .f32) (r : Fin 1024) (u : Fin 1) :
    k0_pay2 (F := Ideal) (xblk m c t) (yblk m c t) acc (ix2 r u)
      = acc (ix2 r u) + tile (xarr m c) (yarr m c) (t.val / 8) (t.val % 8) r := by
  refine (Payload.pay2_apply (xblk m c t) (yblk m c t) acc r u).trans ?_
  refine congrArg (acc (ix2 r u) + ·) ?_
  unfold tile
  refine Finset.sum_congr rfl fun col _ => ?_
  refine congrArg₂ rdist (funext fun d => ?_) (funext fun d => ?_)
  · exact xblk_apply m c t r d
  · exact yblk_apply m c t col d

/-! ## The running column, point by point -/

/-- At the first column tile of a row tile the scratch ends at the zero word plus the tile pair's contribution. -/
theorem step_A (c : Dev nD) (t : Fin cfg0.N) (h0 : t.val % 8 = 0) (h1 : ¬t.val % 8 = 7) (r : Fin 1024) (u : Fin 1) :
    (outsAt0 m c t.val t.isLt).2 (ix2 r u)
      = Ideal.ofBits .f32 0x00000000#32 + tile (xarr m c) (yarr m c) (t.val / 8) (t.val % 8) r := by
  rw [outsAt0_A m c t h0 h1]
  dsimp only
  refine (congrFun (Pieces.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (yblk m c t)) (ix2 r u)).trans ?_
  refine (update_apply m c t (k0_pay1 (F := Ideal)) r u).trans ?_
  rw [Payload.pay1_apply]

/-- At a middle column tile it ends at what the point before left plus the tile pair's contribution; -/
theorem step_B (c : Dev nD) (t : Fin cfg0.N) (h0 : ¬t.val % 8 = 0) (h1 : ¬t.val % 8 = 7) (r : Fin 1024) (u : Fin 1) :
    (outsAt0 m c t.val t.isLt).2 (ix2 r u)
      = (outsAt0 m c (t.val - 1) (Nat.lt_of_le_of_lt (Nat.sub_le _ _) t.isLt)).2 (ix2 r u) + tile (xarr m c) (yarr m c) (t.val / 8) (t.val % 8) r := by
  rw [outsAt0_B m c t h0 h1]
  dsimp only
  refine (congrFun (Pieces.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (yblk m c t) (outsAt0 m c (t.val - 1) (Nat.lt_of_le_of_lt (Nat.sub_le _ _) t.isLt)).2) (ix2 r u)).trans ?_
  exact update_apply m c t (outsAt0 m c (t.val - 1) (Nat.lt_of_le_of_lt (Nat.sub_le _ _) t.isLt)).2 r u

/-- at the last column tile likewise, -/
theorem step_C (c : Dev nD) (t : Fin cfg0.N) (h0 : ¬t.val % 8 = 0) (h1 : t.val % 8 = 7) (r : Fin 1024) (u : Fin 1) :
    (outsAt0 m c t.val t.isLt).2 (ix2 r u)
      = (outsAt0 m c (t.val - 1) (Nat.lt_of_le_of_lt (Nat.sub_le _ _) t.isLt)).2 (ix2 r u) + tile (xarr m c) (yarr m c) (t.val / 8) (t.val % 8) r := by
  rw [outsAt0_C m c t h0 h1]
  dsimp only
  refine (congrFun (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2) (ix2 r u)).trans ?_
  exact update_apply m c t (outsAt0 m c (t.val - 1) (Nat.lt_of_le_of_lt (Nat.sub_le _ _) t.isLt)).2 r u

/-- and there the output block is the scratch's column. -/
theorem out_eq_scratch (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2).symm

/-- THE INVARIANT: after point `n` the scratch holds, at row `r`, the running sum of row `r` of row tile `n / 8` over the
    column tiles `0 … n % 8` — by induction on the point. -/
theorem scratch_eq (c : Dev nD) : ∀ (n : ℕ) (h : n < cfg0.N) (r : Fin 1024) (u : Fin 1),
    (outsAt0 m c n h).2 (ix2 r u) = partialSum (xarr m c) (yarr m c) (n / 8) r (n % 8) := by
  intro n
  induction n with
  | zero =>
    intro h r u
    exact step_A m c ⟨0, h⟩ (Nat.zero_mod 8) (by show ¬(0 : ℕ) % 8 = 7; decide) r u
  | succ n ih =>
    intro h r u
    by_cases h0 : (n + 1) % 8 = 0
    · have h1 : ¬(n + 1) % 8 = 7 := by omega
      refine (step_A m c ⟨n + 1, h⟩ h0 h1 r u).trans ?_
      show _ = partialSum (xarr m c) (yarr m c) ((n + 1) / 8) r ((n + 1) % 8)
      rw [h0]
      rfl
    · have e1 : (n + 1) / 8 = n / 8 := by omega
      have e2 : (n + 1) % 8 = n % 8 + 1 := by omega
      have hstep : (outsAt0 m c (n + 1) h).2 (ix2 r u)
          = (outsAt0 m c n (Nat.lt_of_succ_lt h)).2 (ix2 r u) + tile (xarr m c) (yarr m c) ((n + 1) / 8) ((n + 1) % 8) r := by
        by_cases h1 : (n + 1) % 8 = 7
        · exact step_C m c ⟨n + 1, h⟩ h0 h1 r u
        · exact step_B m c ⟨n + 1, h⟩ h0 h1 r u
      rw [hstep, ih (Nat.lt_of_succ_lt h) r u, e1, e2]
      rfl

/-- The same at an index of the column written by its coordinates. -/
theorem scratch_eq' (c : Dev nD) (n : ℕ) (h : n < cfg0.N) (j : S1024x1.Idx) :
    (outsAt0 m c n h).2 j = partialSum (xarr m c) (yarr m c) (n / 8) ⟨(j 0).val, idx2_lt0 j⟩ (n % 8) := by
  obtain ⟨r, u, rfl⟩ : ∃ (r : Fin 1024) (u : Fin 1), j = ix2 r u := ⟨j 0, j 1, eq_ix2 j⟩
  exact scratch_eq m c n h r u

/-! ## The result array, the host lines around the region, and the run -/

/-- A row that is row `r` of row tile `i` has, as its whole sum, that tile's running sum after the eighth column tile. -/
theorem rowSum_of (X Y : Arr) (R : Fin 8192) (i : ℕ) (r : Fin 1024) (h : R.val = 1024 * i + r.val) :
    rowSum X Y R = partialSum X Y i r 7 := by
  unfold rowSum
  have hr := r.isLt
  have e1 : R.val / 1024 = i := by omega
  have e2 : (⟨R.val % 1024, Nat.mod_lt _ (by decide)⟩ : Fin 1024) = r := Fin.ext (by show R.val % 1024 = r.val; omega)
  rw [e1, e2]

/-- What the [8192, 1] array of row sums ends holding: at row `R`, the whole row sum of row `R`. -/
def rowSums (c : Dev nD) : Vec Ideal S8192x1 .f32 := fun idx => rowSum (xarr m c) (yarr m c) ⟨(idx 0).val, idx2_lt0 idx⟩
abbrev G (c : Dev nD) : Buf (Elt Ideal) ((c : Thread nD τ).loc main_v2) := rowSums m c

/-- The points that write the output back are the last column tiles, and what point `t` writes back is block `t / 8` of
    the row sums: the scratch's column after the eighth column tile. -/
theorem flushed_eq (c : Dev nD) (t : Fin cfg0.N) (hf : (cfg0.win 2).flush t = true) :
    (dats m 0 c).flushed 2 t = ((cfg0.win 2).blk t).view.read (Elt Ideal) (G m c) := by
  have h1 : t.val % 8 = 7 := (flush0_2 t).mp hf
  have h0 : ¬t.val % 8 = 0 := by omega
  show (cfg0.win 2).cut (grid0.coords t) ((dats m 0 c).after 2 t) = _
  rw [after0_2, out_eq_scratch m c t h0 h1]
  funext j
  show (outsAt0 m c t.val t.isLt).2 j = rowSums m c (((cfg0.win 2).blk t).view.emb j)
  rw [scratch_eq' m c t.val t.isLt j, h1]
  unfold rowSums
  refine (rowSum_of (xarr m c) (yarr m c) _ (t.val / 8) ⟨(j 0).val, idx2_lt0 j⟩ ?_).symm
  show win0_2.index t (0 : Fin 2) * 1024 + 1 * (j 0).val = 1024 * (t.val / 8) + (j 0).val
  rw [(idx_2 t).1]; omega

/-- An index of the array is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2).slice (win0_2.rect t)).set ↔ _
  rw [View.set_slice_whole, Rect.mem_set_unit]
  exact Iff.rfl

/-- Every row is in the block written back at the last column tile of its row tile. -/
theorem cover (c : Dev nD) (i : S8192x1.Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 1 := (i 1).isLt
  refine ⟨⟨8 * ((i 0).val / 1024) + 7, by omega⟩, (flush0_2 _).mpr (by show (8 * ((i 0).val / 1024) + 7) % 8 = 7; omega), ?_⟩
  rw [mem_blk]
  intro a
  match a with
  | ⟨0, _⟩ =>
    show win0_2.index _ (0 : Fin 2) * 1024 ≤ (i 0).val ∧ (i 0).val < win0_2.index _ (0 : Fin 2) * 1024 + 1024
    rw [(idx_2 _).1]
    show (8 * ((i 0).val / 1024) + 7) / 8 * 1024 ≤ (i 0).val ∧ (i 0).val < (8 * ((i 0).val / 1024) + 7) / 8 * 1024 + 1024
    omega
  | ⟨1, _⟩ =>
    show win0_2.index _ (1 : Fin 2) * 1 ≤ (i 1).val ∧ (i 1).val < win0_2.index _ (1 : Fin 2) * 1 + 1
    rw [(idx_2 _).2]
    omega

/-- So the array of row sums ends holding every row's whole sum. -/
theorem final (c : Dev nD) : (dats m 0 c).arrAt 2 cfg0.N = G m c :=
  (dats m 0 c).arrAt_eq_of_cover 2 (G m c) (flushed_eq m c) (cover c)

/-- The host lines before the region reshape the two arguments to 8192 × 512. -/
theorem xarr_eq (c : Dev nD) :
    xarr m c = shapeCast S8192x512 (m ((c : Thread nD τ).loc main_arg0)) shapeCasts_S8192x256x2_S8192x512 := by
  show StableHlo.after hostOps0 (fun b => m (c, b)) (Proc.devRef .tc main_v0) = _
  after_results
  rfl
theorem yarr_eq (c : Dev nD) :
    yarr m c = shapeCast S8192x512 (m ((c : Thread nD τ).loc main_arg1)) shapeCasts_S8192x256x2_S8192x512 := by
  show StableHlo.after hostOps0 (fun b => m (c, b)) (Proc.devRef .tc main_v1) = _
  after_results
  rfl

/-- The sum of the row sums over the [8192, 1] array is the sum over the rows. -/
theorem sum_rowSums (c : Dev nD) : ∑ idx : S8192x1.Idx, rowSums m c idx = total (xarr m c) (yarr m c) := by
  rw [← sum_rowSum]
  rw [sum_idx2 (rowSums m c)]
  refine Finset.sum_congr rfl fun R _ => ?_
  rw [Fin.sum_univ_one]
  rfl

/-- The host lines after the region add the row sums up from the zero and divide by the word of 2²⁶: the mean. -/
theorem result_eq (c : Dev nD) :
    Pipeline.afterTail₀ cfgs (dats m) 0 (V0 m) [hostOps1] c main_v4 = fun _ => mean (xarr m c) (yarr m c) := by
  unfold Pipeline.afterTail₀
  show StableHlo.after hostOps1 _ (Proc.devRef .tc main_v4) = _
  after_results
  rw [(Pipeline.withArrays_arr spec0 launch0.win.arr_inj c _ _ 2).trans (final m c)]
  funext i
  show Ideal.div (Ideal.hostReduceAdd reducesTo_S8192x1_S_d0_1 (rowSums m c) (Ideal.ofBits .f32 0x00000000#32) i) (Ideal.ofBits .f32 0x4C800000#32) = _
  rw [Ideal.hostReduceAdd_total reducesTo_S8192x1_S_d0_1 (fun b => b.elim0), sum_rowSums]
  rfl

/-- THE RUN, READ: the result at the mean clamped distance of the reshaped arguments, the arguments unchanged. -/
theorem run : θ_run defs (onTc (τ := τ) (main (F := Ideal))) ⟨m, fun _ => 0, ρ⟩ fun r => ∀ c : Dev nD,
      r.2.mem ((c.tc : Thread nD τ).loc main_v4)
        = (fun _ => mean (shapeCast S8192x512 (m ((c : Thread nD τ).loc main_arg0)) shapeCasts_S8192x256x2_S8192x512)
            (shapeCast S8192x512 (m ((c : Thread nD τ).loc main_arg1)) shapeCasts_S8192x256x2_S8192x512))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans
          ((result_eq m c).trans (by rw [xarr_eq, yarr_eq])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result, on the extended reals, is the mean clamped distance of the two reshaped arguments.
-/
import proofs.«179200_j34952443855259_1_alg».proof.Proof.Gen.ReferenceIdeal.Read
import proofs.«179200_j34952443855259_1_alg».proof.Proof.Spec
import proofs.«179200_j34952443855259_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Cdist

/-- The squared norm of row `R` of the first reshaped argument: the row reduction starts from the zero word, which is
    the real 0, so only the sum of squares is left. -/
theorem sqnorm_left (x0 : (⟨S8192x256x2, .f32⟩ : BufTy).Contents (Elt Ideal)) (R : Fin 8192) :
    val_main_v3 (F := Ideal) x0 (ix1 R)
      = ∑ d : Fin 512, row (shapeCast S8192x512 x0 shapeCasts_S8192x256x2_S8192x512) R d
          * row (shapeCast S8192x512 x0 shapeCasts_S8192x256x2_S8192x512) R d := by
  rw [val_main_v3_apply, val_main_cst_apply, Ideal.ofBits_def, Ideal.ofBits_zero_f32, zero_add]
  refine Finset.sum_congr rfl fun d _ => ?_
  have e : idx_main_v3 (ix1 R) d = ix2 R d :=
    funext fun a => Fin.ext (by match a with | ⟨0, _⟩ => rfl | ⟨1, _⟩ => rfl)
  rw [e]
  rfl

/-- The squared norm of row `C` of the second reshaped argument, likewise. -/
theorem sqnorm_right (x1 : (⟨S8192x256x2, .f32⟩ : BufTy).Contents (Elt Ideal)) (C : Fin 8192) :
    val_main_v5 (F := Ideal) x1 (ix1 C)
      = ∑ d : Fin 512, row (shapeCast S8192x512 x1 shapeCasts_S8192x256x2_S8192x512) C d
          * row (shapeCast S8192x512 x1 shapeCasts_S8192x256x2_S8192x512) C d := by
  rw [val_main_v5_apply, val_main_cst_0_apply, Ideal.ofBits_def, Ideal.ofBits_zero_f32, zero_add]
  refine Finset.sum_congr rfl fun d _ => ?_
  have e : idx_main_v5 (ix1 C) d = ix2 C d :=
    funext fun a => Fin.ext (by match a with | ⟨0, _⟩ => rfl | ⟨1, _⟩ => rfl)
  rw [e]
  rfl

/-- The product of the first argument with the transpose of the second, at `(R, C)`: the inner product of row `R` of
    the first with row `C` of the second. -/
theorem inner_at (x0 x1 : (⟨S8192x256x2, .f32⟩ : BufTy).Contents (Elt Ideal)) (R C : Fin 8192) :
    val_main_v12 (F := Ideal) x0 x1 (ix2 R C)
      = ∑ d : Fin 512, row (shapeCast S8192x512 x0 shapeCasts_S8192x256x2_S8192x512) R d
          * row (shapeCast S8192x512 x1 shapeCasts_S8192x256x2_S8192x512) C d := by
  rw [val_main_v12_apply]
  refine Finset.sum_congr rfl fun d _ => ?_
  rw [val_main_v11_apply]
  have el : lidx_main_v12 (ix2 R C) d = ix2 R d :=
    funext fun a => Fin.ext (by match a with | ⟨0, _⟩ => rfl | ⟨1, _⟩ => rfl)
  have er : idx_main_v11 (ridx_main_v12 (ix2 R C) d) = ix2 C d :=
    funext fun a => Fin.ext (by match a with | ⟨0, _⟩ => rfl | ⟨1, _⟩ => rfl)
  rw [el, er]
  rfl

/-- The matrix of distances at `(R, C)`: the clamped distance of row `R` of the first reshaped argument and row `C`
    of the second. -/
theorem dist_at (x0 x1 : (⟨S8192x256x2, .f32⟩ : BufTy).Contents (Elt Ideal)) (R C : Fin 8192) :
    val_main_v18 (F := Ideal) x0 x1 (ix2 R C)
      = rdist (row (shapeCast S8192x512 x0 shapeCasts_S8192x256x2_S8192x512) R)
          (row (shapeCast S8192x512 x1 shapeCasts_S8192x256x2_S8192x512) C) := by
  have h8 : val_main_v8 (F := Ideal) x0 (ix2 R C)
      = ∑ d : Fin 512, row (shapeCast S8192x512 x0 shapeCasts_S8192x256x2_S8192x512) R d
          * row (shapeCast S8192x512 x0 shapeCasts_S8192x256x2_S8192x512) R d := by
    rw [val_main_v8_apply, val_main_v6_apply]
    have e : idx_main_v6 (idx_main_v8 (ix2 R C)) = ix1 R :=
      funext fun a => Fin.ext (by match a with | ⟨0, _⟩ => rfl)
    rw [e]
    exact sqnorm_left x0 R
  have h9 : val_main_v9 (F := Ideal) x1 (ix2 R C)
      = ∑ d : Fin 512, row (shapeCast S8192x512 x1 shapeCasts_S8192x256x2_S8192x512) C d
          * row (shapeCast S8192x512 x1 shapeCasts_S8192x256x2_S8192x512) C d := by
    rw [val_main_v9_apply, val_main_v7_apply]
    have e : idx_main_v7 (idx_main_v9 (ix2 R C)) = ix1 C :=
      funext fun a => Fin.ext (by match a with | ⟨0, _⟩ => rfl)
    rw [e]
    exact sqnorm_right x1 C
  have h13 : val_main_v13 (F := Ideal) (ix2 R C) = Ideal.ofBits .f32 0x40000000#32 := by
    rw [val_main_v13_apply]
    rfl
  have h16 : val_main_v16 (F := Ideal) (ix2 R C) = Ideal.ofBits .f32 0x00000000#32 := by
    rw [val_main_v16_apply]
    rfl
  rw [val_main_v18_apply, val_main_v17_apply, val_main_v15_apply, val_main_v10_apply, val_main_v14_apply,
    h8, h9, h13, h16, inner_at x0 x1 R C]
  rfl

/-- The reference's last stage at its one index: the mean of the clamped distances between the rows of the two arguments
    reshaped to 8192 × 512. -/
theorem ref_eq (x0 x1 : (⟨S8192x256x2, .f32⟩ : BufTy).Contents (Elt Ideal)) (i : S_.Idx) :
    val_main_v20 (F := Ideal) x0 x1 i
      = mean (shapeCast S8192x512 x0 shapeCasts_S8192x256x2_S8192x512) (shapeCast S8192x512 x1 shapeCasts_S8192x256x2_S8192x512) := by
  have hs : ∑ j : S8192x8192.Idx, (val_main_v18 (F := Ideal) x0 x1) j
      = total (shapeCast S8192x512 x0 shapeCasts_S8192x256x2_S8192x512)
          (shapeCast S8192x512 x1 shapeCasts_S8192x256x2_S8192x512) := by
    refine (ValueIdx.sum_idx2 (fun j => (val_main_v18 (F := Ideal) x0 x1 j : EReal))).trans ?_
    unfold total
    exact Finset.sum_congr rfl fun R _ => Finset.sum_congr rfl fun C _ => dist_at x0 x1 R C
  rw [val_main_v20_apply, val_main_v19_apply, hs]
  rfl

end Cert.ReferenceIdeal.RefValue

end
-- ==== Proof.lean ====
/-
  The claim: a tiled kernel for the mean pairwise distance agrees with its plain reference over the extended reals.

  Both programs take two arrays of 8192 × 256 × 2 numbers, read them as 8192 rows of 512 features, and return the mean
  over all 8192 × 8192 pairs (R, C) of `√ max (‖X_R‖² + ‖Y_C‖² − 2·⟨X_R, Y_C⟩, 0)`.  The reference forms the whole
  matrix of distances and sums it; the kernel walks an 8 × 8 grid of 1024 × 1024 tiles, keeps a running sum per row
  across the column tiles of a row tile, writes each row's sum out after the last column tile, and the lines after it
  add the 8192 row sums up and divide by 2²⁶.  At the ideal instance a change of float format is the identity, the
  matrix unit's product into a zero accumulator and the host's product are the same sum over the 512 features, and a
  reduction is a plain finite sum; the two results then differ only in how one finite sum is grouped, and addition on
  the extended reals is commutative and associative, so they are equal whatever the inputs (the precondition is never
  opened).  The kernel's side is `Cert.KernelIdeal.KValue.run`, the reference's `Cert.ReferenceIdeal.RefValue.ref_eq`
  over its run read back, both stated over the one function `Cert.Cdist.mean`.

  The three frames are the programs' runs with the results dropped; nothing was rewritten by the idealization, so the
  sanctioned-idealization conjunct is `True`.
-/
import proofs.«179200_j34952443855259_1_alg».proof.Defs
import proofs.«179200_j34952443855259_1_alg».proof.Proof.Gen.Kernel
import proofs.«179200_j34952443855259_1_alg».proof.Proof.Gen.Kernel.Skeleton
import proofs.«179200_j34952443855259_1_alg».proof.Proof.Gen.Kernel.Launch
import proofs.«179200_j34952443855259_1_alg».proof.Proof.Gen.Kernel.Points
import proofs.«179200_j34952443855259_1_alg».proof.Proof.Gen.Kernel.Frame
import proofs.«179200_j34952443855259_1_alg».proof.Proof.Gen.KernelIdeal
import proofs.«179200_j34952443855259_1_alg».proof.Proof.Gen.KernelIdeal.Skeleton
import proofs.«179200_j34952443855259_1_alg».proof.Proof.Gen.KernelIdeal.Launch
import proofs.«179200_j34952443855259_1_alg».proof.Proof.Gen.KernelIdeal.Points
import proofs.«179200_j34952443855259_1_alg».proof.Proof.Gen.KernelIdeal.Frame
import proofs.«179200_j34952443855259_1_alg».proof.Proof.Gen.ReferenceIdeal
import proofs.«179200_j34952443855259_1_alg».proof.Proof.Gen.Pre_finite_inputs
import proofs.«179200_j34952443855259_1_alg».proof.Proof.Gen.ReferenceIdeal.Run
import proofs.«179200_j34952443855259_1_alg».proof.Proof.Gen.ReferenceIdeal.Read
import proofs.«179200_j34952443855259_1_alg».proof.Proof.KernelValue
import proofs.«179200_j34952443855259_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments both programs end at the mean clamped distance of the reshaped
    arguments: the kernel by its frame run read as values, the reference by its run read one operation at a time. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  funext i
  exact Cert.ReferenceIdeal.RefValue.ref_eq _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
